-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S11008x1024 : Shape := ⟨2, ![11008, 1024]⟩
abbrev S4096 : Shape := ⟨1, ![4096]⟩
abbrev S11008 : Shape := ⟨1, ![11008]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S11008x1024 : S_.BroadcastsInDim S11008x1024 (![] : Fin 0 → Fin S11008x1024.rank)
  reducesTo_S11008x1024_S_d0_1 : S11008x1024.ReducesTo [0, 1] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S11008x1024 .f32) (main_arg2 : FVec F S4096 .f32) (main_arg3 : FVec F S11008 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S11008x1024 .f32 := Host.absf main_arg1
  let main_cst_0 : FVec F S_ .f32 := constant S_ .f32 0x7F800000#32
  let main_v5 : FVec F S11008x1024 .f32 := broadcastInDim S11008x1024 ![] bcast_S_S11008x1024 main_cst_0
  let main_v6 : IVec S11008x1024 1 := cmpf .olt main_v4 main_v5
  let main_c_1 : IVec S_ 1 := constantI S_ 1 1#1
  let main_v7 : IVec S_ 1 := (fun x v => Host.reduce IntOp.andi x v reducesTo_S11008x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg4 main_v13 main_v16
-- ==== Kernel.lean ====
abbrev S4096x1024 : Shape := ⟨2, ![4096, 1024]⟩
abbrev S11008x1024 : Shape := ⟨2, ![11008, 1024]⟩
abbrev S4096 : Shape := ⟨1, ![4096]⟩
abbrev S11008 : Shape := ⟨1, ![11008]⟩
abbrev S1024 : Shape := ⟨1, ![1024]⟩
abbrev S1x1024 : Shape := ⟨2, ![1, 1024]⟩
abbrev S4096x1 : Shape := ⟨2, ![4096, 1]⟩
abbrev S1x11008 : Shape := ⟨2, ![1, 11008]⟩
abbrev S4096x11008 : Shape := ⟨2, ![4096, 11008]⟩
abbrev S512x1024 : Shape := ⟨2, ![512, 1024]⟩
abbrev S1024x1024 : Shape := ⟨2, ![1024, 1024]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S11008x1024, .f32⟩
  | .hbm, ⟨2, _⟩ => ⟨S4096, .f32⟩
  | .hbm, ⟨3, _⟩ => ⟨S11008, .f32⟩
  | .hbm, ⟨4, _⟩ => ⟨S1024, .f32⟩
  | .hbm, ⟨5, _⟩ => ⟨S1x1024, .f32⟩
  | .hbm, ⟨6, _⟩ => ⟨S4096x1, .f32⟩
  | .hbm, ⟨7, _⟩ => ⟨S1x11008, .f32⟩
  | .hbm, ⟨8, _⟩ => ⟨S4096x11008, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1024_S1x1024 : S1024.ShapeCasts S1x1024
  shapeCasts_S4096_S4096x1 : S4096.ShapeCasts S4096x1
  shapeCasts_S11008_S1x11008 : S11008.ShapeCasts S1x11008
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x1024_S512x1024 : S1x1024.Broadcasts S512x1024
  bitsLt_bf16_f32 : FTy.bits .bf16 < FTy.bits .f32
  broadcasts_S512x1_S512x1024 : S512x1.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S11008x1024.size a
  hwx0_1 : ∀ i : grid0.Coords, EltTy.bits .f32 = 32 ∨ (Rect.unit (s := S11008x1024) (fun a => cc0_transform_1 i a * S1024x1024.size a) (fun a => (Pipeline.Clip.of (cc0_transform_1 i a) (S1024x1024.size a) (S11008x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S11008x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x11008.size a
  hwx0_4 : ∀ i : grid0.Coords, EltTy.bits .f32 = 32 ∨ (Rect.unit (s := S1x11008) (fun a => cc0_transform_4 i a * S1x1024.size a) (fun a => (Pipeline.Clip.of (cc0_transform_4 i a) (S1x1024.size a) (S1x11008.size a)).extent (S1x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x1024) (fun _ => 0) (fun a => (Pipeline.Clip.of (cc0_transform_4 i a) (S1x1024.size a) (S1x11008.size a)).extent (S1x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x1024.size a < S4096x11008.size a
  hwx0_5 : ∀ i : grid0.Coords, EltTy.bits .f32 = 32 ∨ (Rect.unit (s := S4096x11008) (fun a => cc0_transform_5 i a * S512x1024.size a) (fun a => (Pipeline.Clip.of (cc0_transform_5 i a) (S512x1024.size a) (S4096x11008.size a)).extent (S512x1024.size a)) fun a => Pipeline.Clip.inb (Pipeline.Clip.ok_of (hstart0_5 i a))).WholeWords (EltTy.packing .f32)
  hwxs0_5 : ∀ i : grid0.Coords, EltTy.bits .f32 = 32 ∨ (Rect.unit (s := S512x1024) (fun _ => 0) (fun a => (Pipeline.Clip.of (cc0_transform_5 i a) (S512x1024.size a) (S4096x11008.size a)).extent (S512x1024.size a)) fun a => (Nat.zero_add _).trans_le (Pipeline.Clip.extent_le (Pipeline.Clip.ok_of (hstart0_5 i a)))).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v2) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v3) S512x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S11008x1024 : Shape := ⟨2, ![11008, 1024]⟩
abbrev S4096 : Shape := ⟨1, ![4096]⟩
abbrev S11008 : Shape := ⟨1, ![11008]⟩
abbrev S1024 : Shape := ⟨1, ![1024]⟩
abbrev S_ : Shape := ⟨0, ![]⟩
abbrev S1x1024 : Shape := ⟨2, ![1, 1024]⟩
abbrev S4096x11008 : Shape := ⟨2, ![4096, 11008]⟩
abbrev S1x11008 : Shape := ⟨2, ![1, 11008]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S11008x1024, .f32⟩
  | .hbm, ⟨2, _⟩ => ⟨S4096, .f32⟩
  | .hbm, ⟨3, _⟩ => ⟨S11008, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .i1⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S11008x1024, .f32⟩
  | .hbm, ⟨16, _⟩ => ⟨S11008x1024, .i1⟩
  | .hbm, ⟨17, _⟩ => ⟨S_, .f32⟩
  | .hbm, ⟨18, _⟩ => ⟨S11008x1024, .f32⟩
  | .hbm, ⟨19, _⟩ => ⟨S_, .f32⟩
  | .hbm, ⟨20, _⟩ => ⟨S11008x1024, .f32⟩
  | .hbm, ⟨21, _⟩ => ⟨S11008x1024, .f32⟩
  | .hbm, ⟨22, _⟩ => ⟨S11008x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x11008, .f32⟩
  | .hbm, ⟨27, _⟩ => ⟨S1x11008, .f32⟩
  | .hbm, ⟨28, _⟩ => ⟨S4096x11008, .f32⟩
  | .hbm, ⟨29, _⟩ => ⟨S4096x11008, .f32⟩
  | .hbm, ⟨30, _⟩ => ⟨S4096x1, .f32⟩
  | .hbm, ⟨31, _⟩ => ⟨S4096x11008, .f32⟩
  | .hbm, ⟨32, _⟩ => ⟨S4096x11008, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S_S11008x1024 : S_.BroadcastsInDim S11008x1024 (![] : Fin 0 → Fin S11008x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  dot_S4096x1024_S11008x1024_S4096x11008_1_1_0_0_n_n_wf : DotDims.WF S4096x1024 S11008x1024 S4096x11008 [1] [1] [0] [0] [] []

variable [Facts₀]

def dot_S4096x1024_S11008x1024_S4096x11008_1_1_0_0_n_n : DotDims S4096x1024 S11008x1024 S4096x11008 where
  lhsContracting := [1]
  rhsContracting := [1]
  lhsNonContracting := [0]
  rhsNonContracting := [0]
  lhsBatch := []
  rhsBatch := []
  wf := dot_S4096x1024_S11008x1024_S4096x11008_1_1_0_0_n_n_wf

class Facts : Prop extends Facts₀ where

variable [Facts]
-- ==== Proof.KernelBody.lean ====
/-
  The kernel body of the kernel, at any float instance.

  One grid point loads five whole staging blocks — a 512×1024 block of U, a 1024×1024 block of V, the ell row
  [1,1024], a 512×1 column of h and a [1,1024] stretch of the g row — and stores ONE whole 512×1024 block:
  (sign(u)·ell) contracted with sign(v) along the length-1024 axis of both, then scaled by the g row and the h column.
  Every access is through the rectangle at offset zero of the buffer's own sizes, i.e. the whole buffer, so the block
  the output buffer holds afterwards is exactly the stored payload, a pure function of the five loaded blocks.
-/
import proofs.«173674_j24412594110603_1_alg».proof.Proof.Gen.Kernel.Launch
import proofs.«173674_j24412594110603_1_alg».proof.Proof.Gen.Kernel.Skeleton
import proofs.«173674_j24412594110603_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rU : Rect S512x1024 := Rect.unit (s := S512x1024) ![0, 0] S512x1024.size inb_S512x1024_S512x1024_0_0
abbrev rV : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0
abbrev rCol : Rect S512x1 := Rect.unit (s := S512x1) ![0, 0] S512x1.size inb_S512x1_S512x1_0_0

/-- The offsets of those rectangles are all zero. -/
theorem off_zero : (![0, 0] : Fin 2 → Nat) = fun _ => 0 := funext fun a => by fin_cases a <;> rfl

/-- What the output buffer holds after the body, from the five loaded blocks: its one store, read back as the
    block the store covers. -/
def stored (xu : Vec F S512x1024 .f32) (xv : Vec F S1024x1024 .f32) (xl : Vec F S1x1024 .f32) (xh : Vec F S512x1 .f32)
    (xg : Vec F S1x1024 .f32) : Vec F S512x1024 .f32 :=
  View.canon [⟨rU, k0_pay1 (View.ld xu rU) (View.ld xv rV) (View.ld xl rRow) (View.ld xh rCol) (View.ld xg rRow)⟩]

/-- The store is through the whole buffer: it covers every index. -/
theorem stored_cover (p0 : Vec F S512x1024 .f32) (y : S512x1024.Idx) :
    ∃ pc ∈ ([⟨rU, p0⟩] : List (View.Piece (Elt F) S512x1024 .f32)), y ∈ pc.1.set :=
  View.cover_of_tiled [⟨rU, p0⟩] S512x1024.size (by rfl) y

/-- Read back, the stored block IS the payload of the loaded blocks: a whole-buffer load reads the block itself and a
    whole-buffer store leaves the payload itself. -/
theorem stored_eq (xu : Vec F S512x1024 .f32) (xv : Vec F S1024x1024 .f32) (xl : Vec F S1x1024 .f32) (xh : Vec F S512x1 .f32)
    (xg : Vec F S1x1024 .f32) : stored xu xv xl xh xg = k0_pay1 xu xv xl xh xg := by
  unfold stored
  rw [View.canon_unit_zero off_zero]
  simp only [View.ld_unit_zero (S := S512x1024) off_zero, View.ld_unit_zero (S := S1024x1024) off_zero,
    View.ld_unit_zero (S := S1x1024) off_zero, View.ld_unit_zero (S := S512x1) off_zero]

/-! ## The body's triple -/

set_option maxHeartbeats 1000000 in
/-- The kernel body on ANY whole staging memrefs, the five inputs' at contents `xu … xg` and the output's at
    anything, runs to a continuation that holds the inputs' as they were and the output's at the stored block. -/
theorem sound_kernel (c : Dev nD) (E : Set ℕ) (i : grid0.Coords)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S512x1 .f32) (h5 : a5.IsWhole)
    (a6 : Memref sig .tc .vmem S1x1024 .f32) (h6 : a6.IsWhole) (a7 : Memref sig .tc .vmem S512x1024 .f32) (h7 : a7.IsWhole)
    (xu : Vec F S512x1024 .f32) (xv : Vec F S1024x1024 .f32) (xl : Vec F S1x1024 .f32) (xh : Vec F S512x1 .f32)
    (xg : Vec F S1x1024 .f32) (K : PUnit → sProp 𝕄) :
    iprop(owns (c : Thread nD τ) a2 fullShare xu ∗ owns (c : Thread nD τ) a3 fullShare xv ∗ owns (c : Thread nD τ) a4 fullShare xl
        ∗ owns (c : Thread nD τ) a5 fullShare xh ∗ owns (c : Thread nD τ) a6 fullShare xg ∗ (∃ d, owns (c : Thread nD τ) a7 fullShare d)
        ∗ (iprop(owns (c : Thread nD τ) a2 fullShare xu ∗ owns (c : Thread nD τ) a3 fullShare xv ∗ owns (c : Thread nD τ) a4 fullShare xl
            ∗ owns (c : Thread nD τ) a5 fullShare xh ∗ owns (c : Thread nD τ) a6 fullShare xg
            ∗ owns (c : Thread nD τ) a7 fullShare (stored xu xv xl xh xg)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

end Cert.Kernel.Body

end
-- ==== Proof.KernelFrame.lean ====
/-
  The frame of the kernel, at any float instance: every weakly fair execution of @main terminates without a
  fault and leaves the five argument arrays as they were.

  The pipeline walks the 8 × 11 grid. Three windows are cut at the arrays' end, because 11008 = 10·1024 + 768: at the
  last column of the grid only the first 768 rows of V's block, the first 768 entries of g's row and the first 768
  columns of the output block lie inside their arrays. A cut fetch fills those and leaves the rest of the staging
  buffer at contents nothing names, so V's and g's buffers are described on the part inside the array only, and the
  rest is whatever it is. The frame says nothing of the result array, so what the body leaves in the output's buffer
  is not described at all: the body is handed that buffer at any contents and hands it back at any contents.
-/
import proofs.«173674_j24412594110603_1_alg».proof.Proof.KernelBody
import proofs.«173674_j24412594110603_1_alg».proof.Proof.Gen.Kernel.Frame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The word a cut block is filled out with past the array's end where a name is wanted for it: the zero word. Nothing
    reads it. -/
abbrev pad0 {S : Shape} : S.Idx → Elt F .f32 := fun _ => Scalar.ofBits .f32 0#32

/-- V's staging block at point `t`, as the body obligation describes it: the array's rows inside the array, the zero word below. -/
def vblk (c : Dev nD) (t : Fin cfg0.N) : Vec F S1024x1024 .f32 :=
  win0_1.fill (grid0.coords t) pad0 (iblk m c 1 t)
/-- g's staging row likewise: the array's entries inside the array, the zero word past them. -/
def gblk (c : Dev nD) (t : Fin cfg0.N) : Vec F S1x1024 .f32 :=
  win0_4.fill (grid0.coords t) pad0 (iblk m c 4 t)

/-- The output window is the one the frame forgets. -/
def forgets : Fin 6 → Bool := fun w => w.val == 5

/-- The proof data of the one pipeline on core `c`: the arrays as the region finds them; after the body each input's
    buffer at its block (V's and g's filled out with the zero word) and the output's at the stored block of those;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => vblk m c t
    | ⟨2, _⟩ => iblk m c 2 t
    | ⟨3, _⟩ => iblk m c 3 t
    | ⟨4, _⟩ => gblk m c t
    | ⟨5, _⟩ => Body.stored (iblk m c 0 t) (vblk m c t) (iblk m c 2 t) (iblk m c 3 t) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = vblk m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = gblk m c t := by dsimp only [dats]
theorem after5 (c : Dev nD) (t : Fin cfg0.N) :
    (dats m 0 c).after 5 t = Body.stored (iblk m c 0 t) (vblk m c t) (iblk m c 2 t) (iblk m c 3 t) (gblk m c t) := by
  dsimp only [dats]

/-! ## What the body finds in each input's buffer -/

/-- U's, ell's and h's windows tile their arrays: the buffer holds the block, fetched at this point or kept from an earlier one. -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- V's and g's windows are fetched at every point (their block index is the grid's second coordinate, which moves at every
    step): the buffer holds the array's block on the part inside the array and `d`, anything, on the rest. -/
theorem before1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
theorem before4 (c : Dev nD) (t : Fin cfg0.N) (d) :
    (dats m 0 c).before 4 t d = win0_4.fill (grid0.coords t) d (iblk m c 4 t) := by
  unfold Dat.before; rw [if_pos (fetch0_4 t)]
  unfold Dat.fetched Dat.blockOf iblk; rw [A_eq]

/-! ## The body obligation, the output's buffer forgotten -/

/-- What the body is called with at point `t`: the invariant, nothing owed, the five inputs' current buffers at what
    they hold and the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns: the same, V's and g's buffers described on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t))))
    ∗ (∃ X, owns (c : Thread nD τ) (st0_5 t) fullShare X))

/-- A cut block filled out, cut back, is the block. -/
theorem cut_vblk (c : Dev nD) (t : Fin cfg0.N) : (cfg0.win 1).cut (cfg0.grid.coords t) (vblk m c t) = iblk m c 1 t :=
  win0_1.cut_fill _ _ _
theorem cut_gblk (c : Dev nD) (t : Fin cfg0.N) : (cfg0.win 4).cut (cfg0.grid.coords t) (gblk m c t) = iblk m c 4 t :=
  win0_4.cut_fill _ _ _

/-- The body at any point: the inputs' buffers hold their blocks, so the body's triple applies; it leaves them as they
    were, which on the part inside the array is what the obligation asks of V's and g's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, cut_vblk, cut_gblk]
  iintro ⟨HΦ, Ho, ⟨%d0, H0⟩, ⟨%d1, H1⟩, ⟨%d2, H2⟩, ⟨%d3, H3⟩, ⟨%d4, H4⟩, ⟨%X5, H5⟩⟩
  iapply (Body.sound_kernel c Set.univ (grid0.coords t) _ _ _ _ _ _ _ _ _ _ _ _ (iblk m c 0 t)
    (win0_1.fill (grid0.coords t) d1 (iblk m c 1 t)) (iblk m c 2 t) (iblk m c 3 t)
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexact H2
  isplitl [H3]; · iexact H3
  isplitl [H4]; · iexists d4; iexact H4
  iexists _; iexact H5

/-- The library's body obligation, in the form that describes a cut window on its moved part, the output forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates, and every final state has each input array of the pipeline at its
    contents at the region's entry and every unscoped buffer the pipeline does not stage as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim: U and V are staged inputs, never written; h, g and ell are not staged at all (the pipeline stages
    their reshaped copies) and no host operation before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Pipeline.RDat.FramePost.arr_in h c 0 rfl).trans ((A_eq m c 0).trans (V_main_arg0 m c)),
     (Pipeline.RDat.FramePost.arr_in h c 1 rfl).trans ((A_eq m c 1).trans (V_main_arg1 m c)),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) (run_main m ρ)

end Cert.Kernel.Frame

end
-- ==== Proof.KernelIdealBody.lean ====
/-
  The kernel body of the idealized kernel, at any float instance.

  One grid point loads five whole staging blocks — a 512×1024 block of U, a 1024×1024 block of V, the ell row
  [1,1024], a 512×1 column of h and a [1,1024] stretch of the g row — and stores ONE whole 512×1024 block:
  (sign(u)·ell) contracted with sign(v) along the length-1024 axis of both, then scaled by the g row and the h column.
  Every access is through the rectangle at offset zero of the buffer's own sizes, i.e. the whole buffer, so the block
  the output buffer holds afterwards is exactly the stored payload, a pure function of the five loaded blocks.
-/
import proofs.«173674_j24412594110603_1_alg».proof.Proof.Gen.KernelIdeal.Launch
import proofs.«173674_j24412594110603_1_alg».proof.Proof.Gen.KernelIdeal.Skeleton
import proofs.«173674_j24412594110603_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rU : Rect S512x1024 := Rect.unit (s := S512x1024) ![0, 0] S512x1024.size inb_S512x1024_S512x1024_0_0
abbrev rV : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0
abbrev rCol : Rect S512x1 := Rect.unit (s := S512x1) ![0, 0] S512x1.size inb_S512x1_S512x1_0_0

/-- The offsets of those rectangles are all zero. -/
theorem off_zero : (![0, 0] : Fin 2 → Nat) = fun _ => 0 := funext fun a => by fin_cases a <;> rfl

/-- What the output buffer holds after the body, from the five loaded blocks: its one store, read back as the
    block the store covers. -/
def stored (xu : Vec F S512x1024 .f32) (xv : Vec F S1024x1024 .f32) (xl : Vec F S1x1024 .f32) (xh : Vec F S512x1 .f32)
    (xg : Vec F S1x1024 .f32) : Vec F S512x1024 .f32 :=
  View.canon [⟨rU, k0_pay1 (View.ld xu rU) (View.ld xv rV) (View.ld xl rRow) (View.ld xh rCol) (View.ld xg rRow)⟩]

/-- The store is through the whole buffer: it covers every index. -/
theorem stored_cover (p0 : Vec F S512x1024 .f32) (y : S512x1024.Idx) :
    ∃ pc ∈ ([⟨rU, p0⟩] : List (View.Piece (Elt F) S512x1024 .f32)), y ∈ pc.1.set :=
  View.cover_of_tiled [⟨rU, p0⟩] S512x1024.size (by rfl) y

/-- Read back, the stored block IS the payload of the loaded blocks: a whole-buffer load reads the block itself and a
    whole-buffer store leaves the payload itself. -/
theorem stored_eq (xu : Vec F S512x1024 .f32) (xv : Vec F S1024x1024 .f32) (xl : Vec F S1x1024 .f32) (xh : Vec F S512x1 .f32)
    (xg : Vec F S1x1024 .f32) : stored xu xv xl xh xg = k0_pay1 xu xv xl xh xg := by
  unfold stored
  rw [View.canon_unit_zero off_zero]
  simp only [View.ld_unit_zero (S := S512x1024) off_zero, View.ld_unit_zero (S := S1024x1024) off_zero,
    View.ld_unit_zero (S := S1x1024) off_zero, View.ld_unit_zero (S := S512x1) off_zero]

/-! ## The body's triple -/

set_option maxHeartbeats 1000000 in
/-- The kernel body on ANY whole staging memrefs, the five inputs' at contents `xu … xg` and the output's at
    anything, runs to a continuation that holds the inputs' as they were and the output's at the stored block. -/
theorem sound_kernel (c : Dev nD) (E : Set ℕ) (i : grid0.Coords)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S512x1 .f32) (h5 : a5.IsWhole)
    (a6 : Memref sig .tc .vmem S1x1024 .f32) (h6 : a6.IsWhole) (a7 : Memref sig .tc .vmem S512x1024 .f32) (h7 : a7.IsWhole)
    (xu : Vec F S512x1024 .f32) (xv : Vec F S1024x1024 .f32) (xl : Vec F S1x1024 .f32) (xh : Vec F S512x1 .f32)
    (xg : Vec F S1x1024 .f32) (K : PUnit → sProp 𝕄) :
    iprop(owns (c : Thread nD τ) a2 fullShare xu ∗ owns (c : Thread nD τ) a3 fullShare xv ∗ owns (c : Thread nD τ) a4 fullShare xl
        ∗ owns (c : Thread nD τ) a5 fullShare xh ∗ owns (c : Thread nD τ) a6 fullShare xg ∗ (∃ d, owns (c : Thread nD τ) a7 fullShare d)
        ∗ (iprop(owns (c : Thread nD τ) a2 fullShare xu ∗ owns (c : Thread nD τ) a3 fullShare xv ∗ owns (c : Thread nD τ) a4 fullShare xl
            ∗ owns (c : Thread nD τ) a5 fullShare xh ∗ owns (c : Thread nD τ) a6 fullShare xg
            ∗ owns (c : Thread nD τ) a7 fullShare (stored xu xv xl xh xg)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

end Cert.KernelIdeal.Body

end
-- ==== Proof.KernelIdealFrame.lean ====
/-
  The frame of the idealized kernel, at any float instance: every weakly fair execution of @main terminates without a
  fault and leaves the five argument arrays as they were.

  The pipeline walks the 8 × 11 grid. Three windows are cut at the arrays' end, because 11008 = 10·1024 + 768: at the
  last column of the grid only the first 768 rows of V's block, the first 768 entries of g's row and the first 768
  columns of the output block lie inside their arrays. A cut fetch fills those and leaves the rest of the staging
  buffer at contents nothing names, so V's and g's buffers are described on the part inside the array only, and the
  rest is whatever it is. The frame says nothing of the result array, so what the body leaves in the output's buffer
  is not described at all: the body is handed that buffer at any contents and hands it back at any contents.
-/
import proofs.«173674_j24412594110603_1_alg».proof.Proof.KernelIdealBody
import proofs.«173674_j24412594110603_1_alg».proof.Proof.Gen.KernelIdeal.Frame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The word a cut block is filled out with past the array's end where a name is wanted for it: the zero word. Nothing
    reads it. -/
abbrev pad0 {S : Shape} : S.Idx → Elt F .f32 := fun _ => Scalar.ofBits .f32 0#32

/-- V's staging block at point `t`, as the body obligation describes it: the array's rows inside the array, the zero word below. -/
def vblk (c : Dev nD) (t : Fin cfg0.N) : Vec F S1024x1024 .f32 :=
  win0_1.fill (grid0.coords t) pad0 (iblk m c 1 t)
/-- g's staging row likewise: the array's entries inside the array, the zero word past them. -/
def gblk (c : Dev nD) (t : Fin cfg0.N) : Vec F S1x1024 .f32 :=
  win0_4.fill (grid0.coords t) pad0 (iblk m c 4 t)

/-- The output window is the one the frame forgets. -/
def forgets : Fin 6 → Bool := fun w => w.val == 5

/-- The proof data of the one pipeline on core `c`: the arrays as the region finds them; after the body each input's
    buffer at its block (V's and g's filled out with the zero word) and the output's at the stored block of those;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => vblk m c t
    | ⟨2, _⟩ => iblk m c 2 t
    | ⟨3, _⟩ => iblk m c 3 t
    | ⟨4, _⟩ => gblk m c t
    | ⟨5, _⟩ => Body.stored (iblk m c 0 t) (vblk m c t) (iblk m c 2 t) (iblk m c 3 t) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = vblk m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = gblk m c t := by dsimp only [dats]
theorem after5 (c : Dev nD) (t : Fin cfg0.N) :
    (dats m 0 c).after 5 t = Body.stored (iblk m c 0 t) (vblk m c t) (iblk m c 2 t) (iblk m c 3 t) (gblk m c t) := by
  dsimp only [dats]

/-! ## What the body finds in each input's buffer -/

/-- U's, ell's and h's windows tile their arrays: the buffer holds the block, fetched at this point or kept from an earlier one. -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- V's and g's windows are fetched at every point (their block index is the grid's second coordinate, which moves at every
    step): the buffer holds the array's block on the part inside the array and `d`, anything, on the rest. -/
theorem before1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
theorem before4 (c : Dev nD) (t : Fin cfg0.N) (d) :
    (dats m 0 c).before 4 t d = win0_4.fill (grid0.coords t) d (iblk m c 4 t) := by
  unfold Dat.before; rw [if_pos (fetch0_4 t)]
  unfold Dat.fetched Dat.blockOf iblk; rw [A_eq]

/-! ## The body obligation, the output's buffer forgotten -/

/-- What the body is called with at point `t`: the invariant, nothing owed, the five inputs' current buffers at what
    they hold and the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What it returns: the same, V's and g's buffers described on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t))))
    ∗ (∃ X, owns (c : Thread nD τ) (st0_5 t) fullShare X))

/-- A cut block filled out, cut back, is the block. -/
theorem cut_vblk (c : Dev nD) (t : Fin cfg0.N) : (cfg0.win 1).cut (cfg0.grid.coords t) (vblk m c t) = iblk m c 1 t :=
  win0_1.cut_fill _ _ _
theorem cut_gblk (c : Dev nD) (t : Fin cfg0.N) : (cfg0.win 4).cut (cfg0.grid.coords t) (gblk m c t) = iblk m c 4 t :=
  win0_4.cut_fill _ _ _

/-- The body at any point: the inputs' buffers hold their blocks, so the body's triple applies; it leaves them as they
    were, which on the part inside the array is what the obligation asks of V's and g's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, cut_vblk, cut_gblk]
  iintro ⟨HΦ, Ho, ⟨%d0, H0⟩, ⟨%d1, H1⟩, ⟨%d2, H2⟩, ⟨%d3, H3⟩, ⟨%d4, H4⟩, ⟨%X5, H5⟩⟩
  iapply (Body.sound_kernel c Set.univ (grid0.coords t) _ _ _ _ _ _ _ _ _ _ _ _ (iblk m c 0 t)
    (win0_1.fill (grid0.coords t) d1 (iblk m c 1 t)) (iblk m c 2 t) (iblk m c 3 t)
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexact H2
  isplitl [H3]; · iexact H3
  isplitl [H4]; · iexists d4; iexact H4
  iexists _; iexact H5

/-- The library's body obligation, in the form that describes a cut window on its moved part, the output forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates, and every final state has each input array of the pipeline at its
    contents at the region's entry and every unscoped buffer the pipeline does not stage as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim: U and V are staged inputs, never written; h, g and ell are not staged at all (the pipeline stages
    their reshaped copies) and no host operation before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Pipeline.RDat.FramePost.arr_in h c 0 rfl).trans ((A_eq m c 0).trans (V_main_arg0 m c)),
     (Pipeline.RDat.FramePost.arr_in h c 1 rfl).trans ((A_eq m c 1).trans (V_main_arg1 m c)),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) (run_main m ρ)

end Cert.KernelIdeal.Frame

end
-- ==== Proof.KernelIdealBlocks.lean ====
/-
  Where the body's five loaded blocks sit in the argument arrays, at the ideal values.

  At grid point t = (i, j) — i the block row of the result, j its block column — the body reads rows 512·i … of U, rows
  1024·j … of V, all of ell, entries 512·i … of h and entries 1024·j … of g. The pipeline stages ell, h and g through
  their reshaped copies [1,1024], [4096,1] and [1,11008], which hold the same entries in the same order. At the last
  block column only the first 768 rows of V's block and entries of g's stretch lie inside the arrays; what a staging
  buffer holds past them does not matter for an entry of the result whose own column lies inside the array.
-/
import proofs.«173674_j24412594110603_1_alg».proof.Proof.KernelIdealFrame
import Idealize.ShloMosaic.Lib.StableHlo.Run
import Idealize.ShloMosaic.Lib.ValueIdx
import Idealize.ShloMosaic.Lib.ValueLayout

set_option maxRecDepth 16384

noncomputable section

namespace Cert.KernelIdeal.Blocks

open Cert.KernelIdeal Cert.KernelIdeal.Gen Cert.KernelIdeal.Frame
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-! ## The index maps and the cuts, decided over the 88 grid points -/

/-- Each input window's block index in terms of the output's: U and h move with the output's block row, V and g with its
    block column, ell does not move; the output's block indices range over 8 rows and 11 columns. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 10 :=
  (by decide +kernel : ∀ t : Fin grid0.N, _)

/-- The cut sizes: V's block has as many rows inside the array, and g's stretch as many entries, as the output's block has
    columns inside the array — 1024 before the last block column and 768 at it; nothing else is cut. -/
theorem extent_facts : ∀ t : Fin cfg0.N,
    win0_1.xsize (grid0.coords t) (0 : Fin 2) = win0_5.xsize (grid0.coords t) (1 : Fin 2)
    ∧ win0_1.xsize (grid0.coords t) (1 : Fin 2) = 1024
    ∧ win0_4.xsize (grid0.coords t) (0 : Fin 2) = 1
    ∧ win0_4.xsize (grid0.coords t) (1 : Fin 2) = win0_5.xsize (grid0.coords t) (1 : Fin 2)
    ∧ win0_5.xsize (grid0.coords t) (0 : Fin 2) = 512
    ∧ (win0_5.index t (1 : Fin 2) < 10 → win0_5.xsize (grid0.coords t) (1 : Fin 2) = 1024)
    ∧ (win0_5.index t (1 : Fin 2) = 10 → win0_5.xsize (grid0.coords t) (1 : Fin 2) = 768) :=
  (by decide +kernel : ∀ t : Fin grid0.N, _)

/-- Every block of the 8 × 11 tiling is some point's. -/
theorem index_onto : ∀ (q0 : Fin 8) (q1 : Fin 11), ∃ t : Fin cfg0.N, win0_5.index t = ![q0.val, q1.val] :=
  (by decide +kernel : ∀ (q0 : Fin 8) (q1 : Fin 11), ∃ t : Fin grid0.N, win0_5.index t = ![q0.val, q1.val])

/-! ## A filled-out block does not depend on its filler inside the array -/

theorem fill_indep {G : Pipeline.Grid} (w : Pipeline.Window sig G) (i : G.Coords) {α : Type} (d d' : w.block.Idx → α)
    (g : (w.xblock i).Idx → α) (j : w.block.Idx) (h : w.moved i j = true) : w.fill i d g j = w.fill i d' g j := by
  unfold Pipeline.Window.fill; rw [dif_pos h, dif_pos h]

/-- Row q of V's staging block, for q a column of the output's block inside the array, is the array's whatever fills the block out. -/
theorem vfill_indep (c : Dev nD) (t : Fin cfg0.N) (d d' : Vec Ideal S1024x1024 .f32) (q k : Fin 1024)
    (hq : q.val < win0_5.xsize (grid0.coords t) (1 : Fin 2)) :
    win0_1.fill (grid0.coords t) d (iblk m c 1 t) (ix2 q k) = win0_1.fill (grid0.coords t) d' (iblk m c 1 t) (ix2 q k) := by
  obtain ⟨e0, e1, -⟩ := extent_facts t
  refine fill_indep win0_1 _ d d' _ _ ((win0_1.moved_iff _ _).mpr fun a => ?_)
  match a with
  | ⟨0, _⟩ => show q.val < win0_1.xsize (grid0.coords t) (0 : Fin 2); omega
  | ⟨1, _⟩ => show k.val < win0_1.xsize (grid0.coords t) (1 : Fin 2); have := k.isLt; omega

/-- Entry q of g's staging stretch likewise. -/
theorem gfill_indep (c : Dev nD) (t : Fin cfg0.N) (d d' : Vec Ideal S1x1024 .f32) (u : Fin 1) (q : Fin 1024)
    (hq : q.val < win0_5.xsize (grid0.coords t) (1 : Fin 2)) :
    win0_4.fill (grid0.coords t) d (iblk m c 4 t) (ix2 u q) = win0_4.fill (grid0.coords t) d' (iblk m c 4 t) (ix2 u q) := by
  obtain ⟨-, -, e2, e3, -⟩ := extent_facts t
  refine fill_indep win0_4 _ d d' _ _ ((win0_4.moved_iff _ _).mpr fun a => ?_)
  match a with
  | ⟨0, _⟩ => show u.val < win0_4.xsize (grid0.coords t) (0 : Fin 2); have := u.isLt; omega
  | ⟨1, _⟩ => show q.val < win0_4.xsize (grid0.coords t) (1 : Fin 2); omega

/-! ## The reshaped copies of ell, h and g, read at an index -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem V_ell (c : Dev nD) : (V m c main_v0 : S1x1024.Idx → EReal)
    = shapeCast S1x1024 (m ((c : Thread nD τ).loc main_arg4)) shapeCasts_S1024_S1x1024 := by
  dsimp only [Gen.V, Gen.hostOps0]; after_results; rfl
theorem V_h (c : Dev nD) : (V m c main_v1 : S4096x1.Idx → EReal)
    = shapeCast S4096x1 (m ((c : Thread nD τ).loc main_arg2)) shapeCasts_S4096_S4096x1 := by
  dsimp only [Gen.V, Gen.hostOps0]; after_results; rfl
theorem V_g (c : Dev nD) : (V m c main_v2 : S1x11008.Idx → EReal)
    = shapeCast S1x11008 (m ((c : Thread nD τ).loc main_arg3)) shapeCasts_S11008_S1x11008 := by
  dsimp only [Gen.V, Gen.hostOps0]; after_results; rfl

theorem ell_at (c : Dev nD) (u : Fin 1) (k : Fin 1024) :
    (V m c main_v0 : S1x1024.Idx → EReal) (ix2 u k) = m ((c : Thread nD τ).loc main_arg4) (ix1 k) := by
  rw [V_ell]; exact shapeCast_a_1a_apply _ shapeCasts_S1024_S1x1024 u k
theorem h_at (c : Dev nD) (p : Fin 4096) (u : Fin 1) :
    (V m c main_v1 : S4096x1.Idx → EReal) (ix2 p u) = m ((c : Thread nD τ).loc main_arg2) (ix1 p) := by
  rw [V_h]; exact shapeCast_a_a1_apply _ shapeCasts_S4096_S4096x1 p u
theorem g_at (c : Dev nD) (u : Fin 1) (q : Fin 11008) :
    (V m c main_v2 : S1x11008.Idx → EReal) (ix2 u q) = m ((c : Thread nD τ).loc main_arg3) (ix1 q) := by
  rw [V_g]; exact shapeCast_a_1a_apply _ shapeCasts_S11008_S1x11008 u q

/-! ## Each window's block at an index, as an entry of its argument array -/

/-- U's block at (p, k) is U at row 512·i + p, column k, where i is the output's block row. -/
theorem ublk_at (c : Dev nD) (t : Fin cfg0.N) (p : Fin 512) (k : Fin 1024) (I : S4096x1024.Idx)
    (h0 : (I 0).val = win0_5.index t (0 : Fin 2) * 512 + p.val) (h1 : (I 1).val = k.val) :
    iblk m c 0 t (ix2 p k) = m ((c : Thread nD τ).loc main_arg0) I := by
  obtain ⟨e0, e1, -⟩ := index_facts t
  rw [← V_main_arg0 m c]
  show V m c main_arg0 (((cfg0.win 0).blk t).view.emb (ix2 p k)) = V m c main_arg0 I
  refine congrArg _ (funext fun a => Fin.ext ?_)
  match a with
  | ⟨0, _⟩ => show win0_0.index t (0 : Fin 2) * 512 + 1 * p.val = (I 0).val; omega
  | ⟨1, _⟩ => show win0_0.index t (1 : Fin 2) * 1024 + 1 * k.val = (I 1).val; omega

/-- V's staging block at (q, k), for q inside the array, is V at row 1024·j + q, column k, where j is the output's block column. -/
theorem vblk_at (c : Dev nD) (t : Fin cfg0.N) (q k : Fin 1024) (hq : q.val < win0_5.xsize (grid0.coords t) (1 : Fin 2))
    (I : S11008x1024.Idx) (h0 : (I 0).val = win0_5.index t (1 : Fin 2) * 1024 + q.val) (h1 : (I 1).val = k.val) :
    vblk m c t (ix2 q k) = m ((c : Thread nD τ).loc main_arg1) I := by
  obtain ⟨-, -, e2, e3, -⟩ := index_facts t
  obtain ⟨x0, x1, -⟩ := extent_facts t
  have hm : win0_1.moved (grid0.coords t) (ix2 q k) = true := (win0_1.moved_iff _ _).mpr fun a => by
    match a with
    | ⟨0, _⟩ => show q.val < win0_1.xsize (grid0.coords t) (0 : Fin 2); omega
    | ⟨1, _⟩ => show k.val < win0_1.xsize (grid0.coords t) (1 : Fin 2); have := k.isLt; omega
  unfold vblk Pipeline.Window.fill
  rw [dif_pos hm, ← V_main_arg1 m c]
  show V m c main_arg1 (((cfg0.win 1).blk t).view.emb _) = V m c main_arg1 I
  refine congrArg _ (funext fun a => Fin.ext ?_)
  match a with
  | ⟨0, _⟩ => show win0_1.index t (0 : Fin 2) * 1024 + 1 * q.val = (I 0).val; omega
  | ⟨1, _⟩ => show win0_1.index t (1 : Fin 2) * 1024 + 1 * k.val = (I 1).val; omega

/-- The ell row's block at (0, k) is ell at k. -/
theorem lblk_at (c : Dev nD) (t : Fin cfg0.N) (u : Fin 1) (k : Fin 1024) :
    iblk m c 2 t (ix2 u k) = m ((c : Thread nD τ).loc main_arg4) (ix1 k) := by
  obtain ⟨-, -, -, -, e4, e5, -⟩ := index_facts t
  rw [← ell_at m c u k]
  show V m c main_v0 (((cfg0.win 2).blk t).view.emb (ix2 u k)) = V m c main_v0 (ix2 u k)
  refine congrArg _ (funext fun a => Fin.ext ?_)
  match a with
  | ⟨0, _⟩ => show win0_2.index t (0 : Fin 2) * 1 + 1 * u.val = u.val; omega
  | ⟨1, _⟩ => show win0_2.index t (1 : Fin 2) * 1024 + 1 * k.val = k.val; omega

/-- h's column block at (p, 0) is h at 512·i + p. -/
theorem hblk_at (c : Dev nD) (t : Fin cfg0.N) (p : Fin 512) (u : Fin 1) (P : Fin 4096)
    (hP : P.val = win0_5.index t (0 : Fin 2) * 512 + p.val) :
    iblk m c 3 t (ix2 p u) = m ((c : Thread nD τ).loc main_arg2) (ix1 P) := by
  obtain ⟨-, -, -, -, -, -, e6, e7, -⟩ := index_facts t
  rw [← h_at m c P u]
  show V m c main_v1 (((cfg0.win 3).blk t).view.emb (ix2 p u)) = V m c main_v1 (ix2 P u)
  refine congrArg _ (funext fun a => Fin.ext ?_)
  match a with
  | ⟨0, _⟩ => show win0_3.index t (0 : Fin 2) * 512 + 1 * p.val = P.val; omega
  | ⟨1, _⟩ => show win0_3.index t (1 : Fin 2) * 1 + 1 * u.val = u.val; omega

/-- g's staging stretch at (0, q), for q inside the array, is g at 1024·j + q. -/
theorem gblk_at (c : Dev nD) (t : Fin cfg0.N) (u : Fin 1) (q : Fin 1024) (hq : q.val < win0_5.xsize (grid0.coords t) (1 : Fin 2))
    (Q : Fin 11008) (hQ : Q.val = win0_5.index t (1 : Fin 2) * 1024 + q.val) :
    gblk m c t (ix2 u q) = m ((c : Thread nD τ).loc main_arg3) (ix1 Q) := by
  obtain ⟨-, -, -, -, -, -, -, -, e8, e9, -⟩ := index_facts t
  obtain ⟨-, -, x2, x3, -⟩ := extent_facts t
  have hm : win0_4.moved (grid0.coords t) (ix2 u q) = true := (win0_4.moved_iff _ _).mpr fun a => by
    match a with
    | ⟨0, _⟩ => show u.val < win0_4.xsize (grid0.coords t) (0 : Fin 2); have := u.isLt; omega
    | ⟨1, _⟩ => show q.val < win0_4.xsize (grid0.coords t) (1 : Fin 2); omega
  unfold gblk Pipeline.Window.fill
  rw [dif_pos hm, ← g_at m c u Q]
  show V m c main_v2 (((cfg0.win 4).blk t).view.emb _) = V m c main_v2 (ix2 u Q)
  refine congrArg _ (funext fun a => Fin.ext ?_)
  match a with
  | ⟨0, _⟩ => show win0_4.index t (0 : Fin 2) * 1 + 1 * u.val = u.val; omega
  | ⟨1, _⟩ => show win0_4.index t (1 : Fin 2) * 1024 + 1 * q.val = Q.val; omega

end Cert.KernelIdeal.Blocks

end
-- ==== Proof.Spec.lean ====
/-
  What both programs compute, as one function of the five argument arrays, index by index, on the extended reals.

  With s(x) = +1 where x ≥ 0 and −1 elsewhere, entry (p, q) of the 4096 × 11008 result is

      ( ( Σ_{k < 1024}  (s(U[p,k]) · ell[k]) · s(V[q,k]) ) · g[q] ) · h[p] :

  the rank-1024 product of the signed factors, its columns scaled by g and its rows by h, the products taken in
  exactly this order. No law of arithmetic is needed to join the two programs to this form beyond 0 − x = −x for the
  constant −1 the kernel spells as a difference, and 0 + x = x for the zero the kernel's product is accumulated into.
-/
import Idealize.ShloMosaic.PureOps.Ideal
import Idealize.ShloMosaic.PureOps.Ideal.Laws
import Idealize.ShloMosaic.Lib.ValueIdx

noncomputable section

namespace Cert.SignedFactors

open Idealize.ShloMosaic Idealize.ShloMosaic.ValueIdx

/-- The hard sign of an extended real: the word 1.0 where it is at least the zero word, the negative of that word elsewhere. -/
def hardSign (x : Ideal .f32) : Ideal .f32 :=
  Scalar.select (FloatOps.cmpf (F := Ideal) .oge x (Ideal.ofBits .f32 0x00000000#32))
    (Ideal.ofBits .f32 0x3F800000#32) (-(Ideal.ofBits .f32 0x3F800000#32))

/-- Entry (p, q) of the result. -/
def entry (U : FVec Ideal ⟨2, ![4096, 1024]⟩ .f32) (V : FVec Ideal ⟨2, ![11008, 1024]⟩ .f32) (h : FVec Ideal ⟨1, ![4096]⟩ .f32)
    (g : FVec Ideal ⟨1, ![11008]⟩ .f32) (ell : FVec Ideal ⟨1, ![1024]⟩ .f32) (p : Fin 4096) (q : Fin 11008) : Ideal .f32 :=
  ((∑ k : Fin 1024, (hardSign (U (ix2 p k)) * ell (ix1 k)) * hardSign (V (ix2 q k))) * g (ix1 q)) * h (ix1 p)

/-- The whole result array. -/
def result (U : FVec Ideal ⟨2, ![4096, 1024]⟩ .f32) (V : FVec Ideal ⟨2, ![11008, 1024]⟩ .f32) (h : FVec Ideal ⟨1, ![4096]⟩ .f32)
    (g : FVec Ideal ⟨1, ![11008]⟩ .f32) (ell : FVec Ideal ⟨1, ![1024]⟩ .f32) : FVec Ideal ⟨2, ![4096, 11008]⟩ .f32 :=
  fun i => entry U V h g ell (i 0) (i 1)

/-- The constant −1 spelled as the difference 0 − 1 is the negative of the word 1.0. -/
theorem zero_sub_one : Ideal.ofBits .f32 0x00000000#32 - Ideal.ofBits .f32 0x3F800000#32 = -(Ideal.ofBits .f32 0x3F800000#32) := by
  rw [Ideal.ofBits_zero_f32, zero_sub]

end Cert.SignedFactors

end
-- ==== Proof.KernelIdealPayload.lean ====
/-
  The body's stored block at the ideal values, read at an index.

  At row p and column q of the 512 × 1024 block the stored value is

      ( ( Σ_{k < 1024}  (s(u[p,k]) · l[0,k]) · s(v[q,k]) ) · g[0,q] ) · h[p,0]

  where u is the loaded block of U, v the loaded block of V, l the ell row, g the stretch of the g row and h the
  column of h, and s is the hard sign. The two changes of float format are the identity on the extended reals; the
  matrix product contracts axis 1 of both operands, so entry (p, q) pairs row p of the left operand with ROW q of the
  right one, and it is accumulated into the zero block.
-/
import proofs.«173674_j24412594110603_1_alg».proof.Proof.Gen.KernelIdeal.Skeleton
import proofs.«173674_j24412594110603_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.SignedFactors
open Idealize.ShloMosaic Idealize.ShloMosaic.ValueIdx Idealize.SL.Sem

/-! ## The hard sign of a block, at an index -/

/-- The select the kernel prints for the hard sign — 1.0 where the entry is at least 0.0, else 0.0 − 1.0 — is the hard sign of
    the entry, at every index of any shape. -/
theorem sign_apply {s : Shape} (x : FVec Ideal s .f32) (i : s.Idx) :
    select (cmpf .oge x (broadcast s (Scalar.ofBits (F := Ideal) .f32 0x00000000#32)))
        (broadcast s (Scalar.ofBits (F := Ideal) .f32 0x3F800000#32))
        (subf (broadcast s (Scalar.ofBits (F := Ideal) .f32 0x00000000#32)) (broadcast s (Scalar.ofBits (F := Ideal) .f32 0x3F800000#32))) i
      = hardSign (x i) := by
  show Scalar.select (FloatOps.cmpf .oge (x i) (Ideal.ofBits .f32 0x00000000#32)) (Ideal.ofBits .f32 0x3F800000#32)
      (Ideal.ofBits .f32 0x00000000#32 - Ideal.ofBits .f32 0x3F800000#32) = _
  rw [zero_sub_one]; rfl

/-! ## The row and the column laid over the block -/

/-- The one-row vector (the ell row, or the stretch of the g row), cast to its own shape and broadcast down the 512 rows, reads
    the row at the column. -/
theorem row_apply (xl : Vec Ideal S1x1024 .f32) (p : Fin 512) (k : Fin 1024) :
    broadcastTo S512x1024 (shapeCast S1x1024 xl shapeCasts_S1x1024_S1x1024) broadcasts_S1x1024_S512x1024 (ix2 p k)
      = xl (ix2 (0 : Fin 1) k) := by
  rw [shapeCast_self]
  exact broadcastTo_1b_ab_apply xl broadcasts_S1x1024_S512x1024 p k

/-- The one-column vector (the column of h), cast to its own shape and broadcast along the 1024 columns, reads the column at the row. -/
theorem col_apply (xh : Vec Ideal S512x1 .f32) (p : Fin 512) (q : Fin 1024) :
    broadcastTo S512x1024 (shapeCast S512x1 xh shapeCasts_S512x1_S512x1) broadcasts_S512x1_S512x1024 (ix2 p q)
      = xh (ix2 p (0 : Fin 1)) := by
  rw [shapeCast_self]
  refine broadcastTo_apply xh broadcasts_S512x1_S512x1024 (ix2 p q) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else q.val
    rw [if_pos rfl]

/-! ## The matrix product at an index -/

theorem lhs_ax0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_ax1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_ax0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_ax1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a 512 × 1024 left operand with a 1024 × 1024 right operand along axis 1 of both, into the zero block:
    entry (p, q) is the sum over k of left[p,k] · right[q,k]. -/
theorem dot_apply {φ₁ φ₂ : FTy} (L : FVec Ideal S512x1024 φ₁) (R : FVec Ideal S1024x1024 φ₂) (p : Fin 512) (q : Fin 1024) :
    matmul dot_S512x1024_S1024x1024_S512x1024_1_1_0_0_n_n none L R (constant S512x1024 .f32 0x00000000#32) (ix2 p q)
      = ∑ k : Fin 1024, L (ix2 p k) * R (ix2 q k) := by
  show FloatOps.matmul dot_S512x1024_S1024x1024_S512x1024_1_1_0_0_n_n none L R (constant S512x1024 .f32 0x00000000#32) (ix2 p q) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact lhs_ax0 _ _
    | ⟨1, _⟩ => exact (lhs_ax1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact rhs_ax0 _ _
    | ⟨1, _⟩ => exact (rhs_ax1 _ _).trans hk)
  rw [el, er]

/-! ## The stored block at an index -/

/-- The stored block at (p, q), from the five loaded blocks. -/
theorem pay_apply (xu : Vec Ideal S512x1024 .f32) (xv : Vec Ideal S1024x1024 .f32) (xl : Vec Ideal S1x1024 .f32)
    (xh : Vec Ideal S512x1 .f32) (xg : Vec Ideal S1x1024 .f32) (p : Fin 512) (q : Fin 1024) :
    k0_pay1 (F := Ideal) xu xv xl xh xg (ix2 p q)
      = ((∑ k : Fin 1024, (hardSign (xu (ix2 p k)) * xl (ix2 (0 : Fin 1) k)) * hardSign (xv (ix2 q k))) * xg (ix2 (0 : Fin 1) q))
          * xh (ix2 p (0 : Fin 1)) := by
  unfold k0_pay1
  show ((_ : EReal) * _) * _ = _
  rw [row_apply, col_apply, dot_apply]
  refine congrArg (· * xh (ix2 p (0 : Fin 1))) (congrArg (· * xg (ix2 (0 : Fin 1) q)) (Finset.sum_congr rfl fun k _ => ?_))
  show ((_ : EReal) * _) * _ = _
  rw [row_apply, sign_apply, truncf_apply, sign_apply]

end Cert.KernelIdeal.Payload

end
-- ==== Proof.KernelIdealResult.lean ====
/-
  The idealized kernel's result array, at the ideal values: after the run it holds the specification's result of the five
  argument arrays, and the arguments are unchanged.

  Each grid point writes back the part of its stored block that lies inside the array. Entry (p, q) of that part is
  computed from row p of U's block, ROW q of V's block, entry q of g's stretch and entry p of h's column — and, q being
  a column inside the array, row q of V's block and entry q of g's stretch are inside their arrays too, so whatever the
  staging buffers hold past the arrays' end never reaches a written entry. Hence what point (i, j) writes back is
  exactly block (i, j) of the specification's result; the 8 × 11 blocks, the last column's cut at 768 columns, cover
  the 4096 × 11008 array.
-/
import proofs.«173674_j24412594110603_1_alg».proof.Proof.KernelIdealBlocks
import proofs.«173674_j24412594110603_1_alg».proof.Proof.KernelIdealPayload

set_option maxRecDepth 16384

noncomputable section

namespace Cert.KernelIdeal.Result

open Cert.KernelIdeal Cert.KernelIdeal.Gen Cert.KernelIdeal.Frame Cert.KernelIdeal.Blocks Cert.KernelIdeal.Payload Cert.SignedFactors
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The written part of the stored block does not see the fillers -/

/-- An index of the part of the output's block inside the array, as a (row, column) pair of the block. -/
theorem xinj_eq (t : Fin cfg0.N) (j : (win0_5.xblock (grid0.coords t)).Idx) (h0 : (j 0).val < 512) (h1 : (j 1).val < 1024) :
    win0_5.xinj (grid0.coords t) j = ix2 (⟨(j 0).val, h0⟩ : Fin 512) (⟨(j 1).val, h1⟩ : Fin 1024) := by
  funext a
  match a with
  | ⟨0, _⟩ => rfl
  | ⟨1, _⟩ => rfl

/-- The row and column bounds of such an index. -/
theorem xidx_lt (t : Fin cfg0.N) (j : (win0_5.xblock (grid0.coords t)).Idx) :
    (j 0).val < 512 ∧ (j 1).val < 1024 ∧ (j 1).val < win0_5.xsize (grid0.coords t) (1 : Fin 2) := by
  obtain ⟨-, -, -, -, x4, x5, x6⟩ := extent_facts t
  obtain ⟨-, -, -, -, -, -, -, -, -, -, -, b1⟩ := index_facts t
  have h0 : (j 0).val < win0_5.xsize (grid0.coords t) (0 : Fin 2) := (j 0).isLt
  have h1 : (j 1).val < win0_5.xsize (grid0.coords t) (1 : Fin 2) := (j 1).isLt
  refine ⟨by omega, ?_, h1⟩
  by_cases hlt : win0_5.index t (1 : Fin 2) < 10
  · have := x5 hlt; omega
  · have := x6 (by omega); omega

/-- The part of the stored block the write-back writes is the same whatever V's and g's staging buffers hold past the arrays' end. -/
theorem cut_stored (c : Dev nD) (t : Fin cfg0.N) (d1 : Vec Ideal S1024x1024 .f32) (d4 : Vec Ideal S1x1024 .f32) :
    (cfg0.win 5).cut (cfg0.grid.coords t) (Body.stored (iblk m c 0 t) (win0_1.fill (grid0.coords t) d1 (iblk m c 1 t))
        (iblk m c 2 t) (iblk m c 3 t) (win0_4.fill (grid0.coords t) d4 (iblk m c 4 t)))
      = (cfg0.win 5).cut (cfg0.grid.coords t) ((dats m 0 c).after 5 t) := by
  rw [after5, Body.stored_eq, Body.stored_eq]
  funext j
  obtain ⟨hj0, hj1, hjx⟩ := xidx_lt t j
  show k0_pay1 (F := Ideal) _ _ _ _ _ (win0_5.xinj (grid0.coords t) j) = k0_pay1 (F := Ideal) _ _ _ _ _ (win0_5.xinj (grid0.coords t) j)
  rw [xinj_eq t j hj0 hj1, pay_apply, pay_apply]
  unfold vblk gblk
  rw [gfill_indep m c t d4 pad0 (0 : Fin 1) ⟨(j 1).val, hj1⟩ hjx]
  refine congrArg (· * _) (congrArg (· * _) (Finset.sum_congr rfl fun k _ => ?_))
  rw [vfill_indep m c t d1 pad0 ⟨(j 1).val, hj1⟩ k hjx]
  rfl

/-! ## The body obligation, every window described -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: V's, g's and the output's buffers described on the part inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t))))
    ∗ (∃ d, owns (c : Thread nD τ) (st0_5 t) fullShare
        ((cfg0.win 5).fill (cfg0.grid.coords t) d ((cfg0.win 5).cut (cfg0.grid.coords t) ((dats m 0 c).after 5 t)))))

/-- The body at any point: it stores the payload of what its input buffers hold, whose written part is the one the proof
    data names (`cut_stored`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, cut_vblk, cut_gblk]
  iintro ⟨HΦ, Ho, ⟨%d0, H0⟩, ⟨%d1, H1⟩, ⟨%d2, H2⟩, ⟨%d3, H3⟩, ⟨%d4, H4⟩, ⟨%d5, H5⟩⟩
  iapply (Body.sound_kernel c Set.univ (grid0.coords t) _ _ _ _ _ _ _ _ _ _ _ _ (iblk m c 0 t)
    (win0_1.fill (grid0.coords t) d1 (iblk m c 1 t)) (iblk m c 2 t) (iblk m c 3 t)
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexact H2
  isplitl [H3]; · iexact H3
  isplitl [H4]; · iexists d4; iexact H4
  iexists (Body.stored (iblk m c 0 t) (win0_1.fill (grid0.coords t) d1 (iblk m c 1 t)) (iblk m c 2 t) (iblk m c 3 t)
    (win0_4.fill (grid0.coords t) d4 (iblk m c 4 t)))
  rw [← cut_stored m c t d1 d4, Pipeline.Window.fill_cut]
  iexact H5

theorem body_obligation (c : Dev nD) :
    BodyObligationLoose (dats (F := Ideal) m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## What each point writes back -/

/-- The specification's result of the five argument arrays as launched. -/
abbrev spec (c : Dev nD) : Buf (Elt Ideal) ((c : Thread nD τ).loc main_v3) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of the specification's result. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after5, Body.stored_eq]
  funext j
  obtain ⟨hj0, hj1, hjx⟩ := xidx_lt t j
  obtain ⟨-, -, -, -, -, -, -, -, -, -, b0, b1⟩ := index_facts t
  obtain ⟨-, -, -, -, -, x5, x6⟩ := extent_facts t
  have hP : win0_5.index t (0 : Fin 2) * 512 + (j 0).val < 4096 := by omega
  have hQ : win0_5.index t (1 : Fin 2) * 1024 + (j 1).val < 11008 := by
    by_cases hlt : win0_5.index t (1 : Fin 2) < 10
    · omega
    · have := x6 (by omega); omega
  have hE : ((cfg0.win 5).blk t).view.emb j
      = ix2 (⟨win0_5.index t (0 : Fin 2) * 512 + (j 0).val, hP⟩ : Fin 4096) (⟨win0_5.index t (1 : Fin 2) * 1024 + (j 1).val, hQ⟩ : Fin 11008) := by
    funext a; apply Fin.ext
    match a with
    | ⟨0, _⟩ => show win0_5.index t (0 : Fin 2) * 512 + 1 * (j 0).val = win0_5.index t (0 : Fin 2) * 512 + (j 0).val; omega
    | ⟨1, _⟩ => show win0_5.index t (1 : Fin 2) * 1024 + 1 * (j 1).val = win0_5.index t (1 : Fin 2) * 1024 + (j 1).val; omega
  show k0_pay1 (F := Ideal) _ _ _ _ _ (win0_5.xinj (grid0.coords t) j) = spec m c (((cfg0.win 5).blk t).view.emb j)
  rw [xinj_eq t j hj0 hj1, pay_apply, hE]
  show _ = entry _ _ _ _ _ (⟨win0_5.index t (0 : Fin 2) * 512 + (j 0).val, hP⟩ : Fin 4096) (⟨win0_5.index t (1 : Fin 2) * 1024 + (j 1).val, hQ⟩ : Fin 11008)
  unfold entry
  rw [gblk_at m c t (0 : Fin 1) ⟨(j 1).val, hj1⟩ hjx ⟨_, hQ⟩ rfl, hblk_at m c t ⟨(j 0).val, hj0⟩ (0 : Fin 1) ⟨_, hP⟩ rfl]
  refine congrArg (· * _) (congrArg (· * _) (Finset.sum_congr rfl fun k _ => ?_))
  rw [ublk_at m c t ⟨(j 0).val, hj0⟩ k (ix2 ⟨_, hP⟩ k) rfl rfl, lblk_at m c t (0 : Fin 1) k,
    vblk_at m c t ⟨(j 1).val, hj1⟩ k hjx (ix2 ⟨_, hQ⟩ k) rfl rfl]

/-! ## The blocks cover the array -/

/-- An index of the result array is in point `t`'s block iff each coordinate is in the block's range on its axis, the range cut at the array's end. -/
theorem mem_blk (t : Fin cfg0.N) (i : S4096x11008.Idx) :
    i ∈ ((cfg0.win 5).blk t).view.set ↔ ∀ a : Fin 2, win0_5.index t a * S512x1024.size a ≤ (i a).val
      ∧ (i a).val < win0_5.index t a * S512x1024.size a + win0_5.xsize (grid0.coords t) a := by
  show i ∈ ((View.whole main_v3).slice (win0_5.rect t)).set ↔ _
  rw [View.set_slice_whole, Rect.mem_set_unit]
  exact Iff.rfl

/-- Every index of the result array is in the block of the point at its block row and block column. -/
theorem cover (i : S4096x11008.Idx) : ∃ t : Fin cfg0.N, (cfg0.win 5).flush t = true ∧ i ∈ ((cfg0.win 5).blk t).view.set := by
  have hi0 : (i 0).val < 4096 := (i 0).isLt
  have hi1 : (i 1).val < 11008 := (i 1).isLt
  obtain ⟨t, ht⟩ := index_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  obtain ⟨-, -, -, -, x4, x5, x6⟩ := extent_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + win0_5.xsize (grid0.coords t) (0 : Fin 2)
    omega
  | ⟨1, _⟩ =>
    show win0_5.index t (1 : Fin 2) * 1024 ≤ (i 1).val ∧ (i 1).val < win0_5.index t (1 : Fin 2) * 1024 + win0_5.xsize (grid0.coords t) (1 : Fin 2)
    by_cases hlt : win0_5.index t (1 : Fin 2) < 10
    · have := x5 hlt; omega
    · have := x6 (by omega); omega

/-- The result array after the run is the specification's result. -/
theorem final (c : Dev nD) : (dats m 0 c).arrAt 5 cfg0.N = spec m c :=
  (dats m 0 c).arrAt_eq_of_cover 5 (spec m c) (fun t _ => flushed_eq m c t) cover

/-! ## The run, read -/

/-- Every weakly fair execution of the idealized kernel's @main terminates; the result array ends at the specification's result
    of the argument arrays, and the argument arrays end unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).1 5).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) (run_main m ρ)

end Cert.KernelIdeal.Result

end
-- ==== Proof.ReferenceValue.lean ====
/-
  The reference at the ideal values is the specification's result.

  jnp's program selects +1 / −1 by the same test x ≥ 0 (its −1 is the negation of the constant 1), multiplies the sign of U by
  ell laid along every row, contracts axis 1 of that with axis 1 of the sign of V, and multiplies by g laid along every
  row and then by h laid down every column: entry by entry the same sum and the same two products, in the same order.
-/
import proofs.«173674_j24412594110603_1_alg».proof.Proof.Gen.ReferenceIdeal.Run
import proofs.«173674_j24412594110603_1_alg».proof.Proof.Gen.ReferenceIdeal.Read
import proofs.«173674_j24412594110603_1_alg».proof.Proof.Spec

noncomputable section

namespace Cert.ReferenceIdeal.RefValue

open Cert.ReferenceIdeal Cert.ReferenceIdeal.Gen Cert.ReferenceIdeal.Read Cert.SignedFactors
open Idealize.ShloMosaic Idealize.ShloMosaic.ValueIdx Idealize.SL.Sem

/-- The reference's select for U is the hard sign of the entry. -/
theorem sign_U (x0 : (⟨S4096x1024, .f32⟩ : BufTy).Contents (Elt Ideal)) (j : S4096x1024.Idx) :
    val_main_v5 (F := Ideal) x0 j = hardSign (x0 j) := by
  rw [val_main_v5_apply, val_main_v1_apply, val_main_v0_apply, val_main_cst_apply, val_main_v2_apply, val_main_cst_0_apply,
    val_main_v4_apply, val_main_v3_apply, val_main_cst_1_apply]
  rfl

/-- The reference's select for V likewise. -/
theorem sign_V (x1 : (⟨S11008x1024, .f32⟩ : BufTy).Contents (Elt Ideal)) (j : S11008x1024.Idx) :
    val_main_v11 (F := Ideal) x1 j = hardSign (x1 j) := by
  rw [val_main_v11_apply, val_main_v7_apply, val_main_v6_apply, val_main_cst_2_apply, val_main_v8_apply, val_main_cst_3_apply,
    val_main_v10_apply, val_main_v9_apply, val_main_cst_4_apply]
  rfl

/-- ell laid along every row of a 4096 × 1024 array reads ell at the column. -/
theorem ell_rows (x4 : (⟨S1024, .f32⟩ : BufTy).Contents (Elt Ideal)) (p : Fin 4096) (k : Fin 1024) :
    val_main_v13 (F := Ideal) x4 (ix2 p k) = x4 (ix1 k) := by
  rw [val_main_v13_apply, val_main_v12_apply]
  exact congrArg x4 (funext fun a => match a with | ⟨0, _⟩ => rfl)

/-- The reference's result is the specification's. -/
theorem ref_eq_spec (x0 : (⟨S4096x1024, .f32⟩ : BufTy).Contents (Elt Ideal)) (x1 : (⟨S11008x1024, .f32⟩ : BufTy).Contents (Elt Ideal))
    (x2 : (⟨S4096, .f32⟩ : BufTy).Contents (Elt Ideal)) (x3 : (⟨S11008, .f32⟩ : BufTy).Contents (Elt Ideal))
    (x4 : (⟨S1024, .f32⟩ : BufTy).Contents (Elt Ideal)) :
    val_main_v21 (F := Ideal) x0 x1 x2 x3 x4 = result x0 x1 x2 x3 x4 := by
  funext i
  obtain ⟨p, q, rfl⟩ : ∃ (p : Fin 4096) (q : Fin 11008), i = ix2 p q := ⟨i 0, i 1, eq_ix2 i⟩
  rw [val_main_v21_apply, val_main_v18_apply, val_main_v15_apply, val_main_v20_apply, val_main_v19_apply, val_main_v17_apply,
    val_main_v16_apply]
  have e2 : idx_main_v19 (idx_main_v20 (ix2 p q)) = ix1 p := funext fun a => match a with | ⟨0, _⟩ => rfl
  have e3 : idx_main_v16 (idx_main_v17 (ix2 p q)) = ix1 q := funext fun a => match a with | ⟨0, _⟩ => rfl
  rw [e2, e3]
  show ((∑ k : Fin 1024, _) * x3 (ix1 q)) * x2 (ix1 p) = entry x0 x1 x2 x3 x4 p q
  unfold entry
  refine congrArg (· * _) (congrArg (· * _) (Finset.sum_congr rfl fun k _ => ?_))
  have el : lidx_main_v15 (ix2 p q) k = ix2 p k := funext fun a => match a with | ⟨0, _⟩ => rfl | ⟨1, _⟩ => rfl
  have er : ridx_main_v15 (ix2 p q) k = ix2 q k := funext fun a => match a with | ⟨0, _⟩ => rfl | ⟨1, _⟩ => rfl
  rw [el, er, val_main_v14_apply, sign_U, sign_V, ell_rows]
  rfl

end Cert.ReferenceIdeal.RefValue

end
-- ==== Proof.lean ====
/-
  A rank-1024 product of signed factors, scaled by columns and by rows: the kernel against its jnp reference.

  With s(x) = +1 where x ≥ 0 and −1 elsewhere, both programs compute, for U : f32[4096,1024], V : f32[11008,1024],
  h : f32[4096], g : f32[11008] and ell : f32[1024], the 4096 × 11008 array whose entry (p, q) is

      ( ( Σ_{k < 1024}  (s(U[p,k]) · ell[k]) · s(V[q,k]) ) · g[q] ) · h[p].

  The kernel walks an 8 × 11 grid of 512 × 1024 output blocks; at each point it loads a 512 × 1024 block of U, a
  1024 × 1024 block of V, the ell row, a column of h and a stretch of g, and stores one block. 11008 is not a multiple of
  1024, so the last block column is cut at 768 columns, and with it V's block (768 rows) and g's stretch (768 entries);
  what the staging buffers hold past the arrays' end only reaches entries of the stored block past the array's end, which
  the write-back does not write.

  The claims. The three frames: each program terminates without a fault and leaves its arguments unchanged — the two
  kernels' by the same argument at the two float instances (the frame says nothing of the result, so what the body stores
  is not described), the reference's by its run. The idealization rewrote no operation, so nothing is to be preserved.
  At the ideal values both programs end with the array above: the kernel block by block (each point writes back its block
  of it, and the blocks cover the array), the reference operation by operation; the two sums are the same sum term by
  term, the kernel's −1 being the difference 0 − 1 and its product accumulated into the zero block.
-/
import proofs.«173674_j24412594110603_1_alg».proof.Defs
import proofs.«173674_j24412594110603_1_alg».proof.Proof.Gen.Kernel
import proofs.«173674_j24412594110603_1_alg».proof.Proof.Gen.KernelIdeal
import proofs.«173674_j24412594110603_1_alg».proof.Proof.Gen.ReferenceIdeal
import proofs.«173674_j24412594110603_1_alg».proof.Proof.Gen.Pre_finite_inputs
import proofs.«173674_j24412594110603_1_alg».proof.Proof.KernelFrame
import proofs.«173674_j24412594110603_1_alg».proof.Proof.KernelIdealFrame
import proofs.«173674_j24412594110603_1_alg».proof.Proof.KernelIdealResult
import proofs.«173674_j24412594110603_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its five arguments unchanged. -/
theorem frame_kernel : Cert.frame_Kernel := fun m ρ _ => Cert.Kernel.Frame.frame (F := Bits) m ρ

/-- So does the idealized kernel. -/
theorem frame_kernelIdeal : Cert.frame_KernelIdeal := fun m ρ _ => Cert.KernelIdeal.Frame.frame (F := Ideal) m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- At the ideal values, from memories that agree on the arguments, both programs end with the same array — the signed-factor
    product scaled by g and h — and unchanged arguments. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v21_eq _ _ _ _ _).trans (Cert.ReferenceIdeal.RefValue.ref_eq_spec _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
